-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S65536 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S65536 : Shape := ⟨1, ![65536]⟩
abbrev S1024 : Shape := ⟨1, ![1024]⟩
abbrev S1x1024 : Shape := ⟨2, ![1, 1024]⟩
abbrev S65536x1 : Shape := ⟨2, ![65536, 1]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536, .f32⟩
  | .hbm, ⟨2, _⟩ => ⟨S1024, .f32⟩
  | .hbm, ⟨3, _⟩ => ⟨S1x1024, .f32⟩
  | .hbm, ⟨4, _⟩ => ⟨S65536x1, .f32⟩
  | .hbm, ⟨5, _⟩ => ⟨S65536x1024, .f32⟩
  | .hbm, ⟨6, _⟩ => ⟨S65536x1, .f32⟩
  | .hbm, ⟨7, _⟩ => ⟨S65536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x1, .f32⟩
  | .local _ .vmem, ⟨8, _⟩ => ⟨S1024x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  shapeCasts_S65536_S65536x1 : S65536.ShapeCasts S65536x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1x1024_S1024x1024 : S1x1024.Broadcasts S1024x1024
  reduces_S1x1024_S1 : S1x1024.Reduces [1] S1
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1x1_S1024x1 : S1x1.Broadcasts S1024x1
  shapeCasts_S65536x1_S65536 : S65536x1.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S65536x1.size a
  hwx0_4 : ∀ i : grid0.Coords, EltTy.bits .f32 = 32 ∨ (Rect.block (s := S65536x1) S1024x1.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S1024 : Shape := ⟨1, ![1024]⟩
abbrev S_ : Shape := ⟨0, ![]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536, .f32⟩
  | .hbm, ⟨10, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536 : S_.BroadcastsInDim S65536 (![] : Fin 0 → Fin S65536.rank)

variable [Facts₀]

class Facts : Prop extends Facts₀ where

variable [Facts]
-- ==== Proof.ColumnScale.lean ====
/-
  The mathematics of the two results, stated once over literal shapes with no program in sight.

    y[r, c] = x[r, c] · e^(s[c])          every column of x scaled by the exponential of its entry of s
    d'[r]   = d[r] + Σ_k s[k]             every entry of d shifted by the total of s

  over the extended reals: the product and the sum are the extended reals' own, the exponential sends −∞ to 0 and
  +∞ to +∞. Neither side of the comparison regroups a product over a sum, so nothing below needs an entry to be finite:
  the only laws used are that adding the zero word's value changes nothing and that a finite sum may be indexed by
  any bijective relabelling of its terms.

  Below the two functions: the same values as a kernel body spells them on one block — a [1, 1024] row exponentiated
  and repeated down 1024 rows, a lane sum of that row repeated down a [1024, 1] column — each read at an index; and the
  two reshapes between a vector and a one-column matrix read at an index.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value

noncomputable section

namespace Cert.ColumnScale

open Idealize.ShloMosaic Idealize.ShloMosaic.ValueIdx

/-- `y[r, c] = x[r, c] · e^(s[c])`. -/
def scaled (x : FVec Ideal ⟨2, ![65536, 1024]⟩ .f32) (s : FVec Ideal ⟨1, ![1024]⟩ .f32) : FVec Ideal ⟨2, ![65536, 1024]⟩ .f32 :=
  fun i => x i * Ideal.exp (s (ix1 (n := 1024) ⟨(i 1).val, (i 1).isLt⟩))

/-- `d'[r] = d[r] + Σ_k s[k]`. -/
def shifted (d : FVec Ideal ⟨1, ![65536]⟩ .f32) (s : FVec Ideal ⟨1, ![1024]⟩ .f32) : FVec Ideal ⟨1, ![65536]⟩ .f32 :=
  fun i => d i + ∑ k : Fin 1024, s (ix1 k)

theorem scaled_apply (x : FVec Ideal ⟨2, ![65536, 1024]⟩ .f32) (s : FVec Ideal ⟨1, ![1024]⟩ .f32) (r : Fin 65536) (c : Fin 1024) :
    scaled x s (ix2 r c) = x (ix2 r c) * Ideal.exp (s (ix1 c)) := rfl

theorem shifted_apply (d : FVec Ideal ⟨1, ![65536]⟩ .f32) (s : FVec Ideal ⟨1, ![1024]⟩ .f32) (r : Fin 65536) :
    shifted d s (ix1 r) = d (ix1 r) + ∑ k : Fin 1024, s (ix1 k) := rfl

/-! ## A vector and its one-column matrix -/

/-- An `[a]` vector reshaped to `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` one-column matrix reshaped to `[a]` reads, at `i`, the matrix at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The two block values a kernel body computes, read at an index -/

/-- A `[1024, 1024]` block times the exponential of a `[1, 1024]` row repeated down its rows: at `(p, q)` the block's
    entry times `e` to the row's entry `q`. -/
theorem block_times_exp_row (row : FVec Ideal ⟨2, ![1, 1024]⟩ .f32) (blk : FVec Ideal ⟨2, ![1024, 1024]⟩ .f32)
    (h1 : (⟨2, ![1, 1024]⟩ : Shape).ShapeCasts ⟨2, ![1, 1024]⟩) (h2 : (⟨2, ![1, 1024]⟩ : Shape).Broadcasts ⟨2, ![1024, 1024]⟩)
    (p q : Fin 1024) :
    mulf blk (broadcastTo ⟨2, ![1024, 1024]⟩ (exp (shapeCast ⟨2, ![1, 1024]⟩ row h1)) h2) (ix2 p q)
      = blk (ix2 p q) * Ideal.exp (row (ix2 (0 : Fin 1) q)) := by
  rw [mulf_apply, broadcastTo_1b_ab_apply, shapeCast_self]
  rfl

/-- The index a lane sum over axis 1 of a `[1, 1024]` row visits at lane `k` is `(0, k)`. -/
theorem lift_row (h : (⟨2, ![1, 1024]⟩ : Shape).Reduces [1] ⟨1, ![1]⟩) (j : (⟨1, ![1]⟩ : Shape).Idx) (k : Fin 1024) :
    h.lift j k = ix2 (0 : Fin 1) k := by
  funext a
  apply Fin.ext
  match a with
  | ⟨0, _⟩ =>
    have hlt : (h.lift j k (0 : Fin 2)).val < 1 := (h.lift j k (0 : Fin 2)).isLt
    show (h.lift j k (0 : Fin 2)).val = 0
    omega
  | ⟨1, _⟩ => rfl

/-- A `[1024, 1]` column plus the lane sum of a `[1, 1024]` row repeated down it: at `(p, u)` the column's entry plus
    the row's total. The sum's accumulator is the zero word, the neutral element it starts from. -/
theorem column_plus_row_total (row : FVec Ideal ⟨2, ![1, 1024]⟩ .f32) (col : FVec Ideal ⟨2, ![1024, 1]⟩ .f32)
    (h1 : (⟨2, ![1, 1024]⟩ : Shape).ShapeCasts ⟨2, ![1, 1024]⟩) (hr : (⟨2, ![1, 1024]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩) (h4 : (⟨2, ![1024, 1]⟩ : Shape).ShapeCasts ⟨2, ![1024, 1]⟩)
    (h5 : (⟨2, ![1, 1]⟩ : Shape).Broadcasts ⟨2, ![1024, 1]⟩) (p : Fin 1024) (u : Fin 1) :
    addf (shapeCast ⟨2, ![1024, 1]⟩ col h4)
        (broadcastTo ⟨2, ![1024, 1]⟩ (shapeCast ⟨2, ![1, 1]⟩
          (multiReduction .add [1] ⟨1, ![1]⟩ (shapeCast ⟨2, ![1, 1024]⟩ row h1) 0x00000000#32 hr hφ hacc) h3) h5) (ix2 p u)
      = col (ix2 p u) + ∑ k : Fin 1024, row (ix2 (0 : Fin 1) k) := by
  rw [addf_apply, shapeCast_self, shapeCast_self, broadcastTo_1b_ab_apply, shapeCast_a_1a_apply]
  refine congrArg (col (ix2 p u) + ·) ?_
  refine (Ideal.multiReduction_add_single row 0x00000000#32 hr hφ hacc (ix1 u)).trans ?_
  exact Finset.sum_congr rfl fun k _ => congrArg row (lift_row hr (ix1 u) k)

end Cert.ColumnScale

end
-- ==== Proof.RefValue.lean ====
/-
  The reference's two results are the two specified functions.

  Its first result multiplies x by the exponential of s repeated along a new leading axis and then down every row: at
  (r, c) that is x[r, c] · e^(s[c]). Its second adds to d the host's sum of s from the zero word, repeated at every
  index: at r that is d[r] + (0 + Σ_j s[j]), the sum taken over the rank-one index set of s, which is its coordinate
  range relabelled.
-/
import proofs.«113367_j28329604284563_1_alg».proof.Proof.Gen.ReferenceIdeal.Read
import proofs.«113367_j28329604284563_1_alg».proof.Proof.ColumnScale

noncomputable section

namespace Cert.ReferenceIdeal.RefValue

open Cert.ReferenceIdeal Cert.ReferenceIdeal.Read Idealize.ShloMosaic Idealize.ShloMosaic.ValueIdx

/-- The product stage at `(r, c)` is `x[r, c] · e^(s[c])`. -/
theorem product_eq (x : FVec Ideal S65536x1024 .f32) (s : FVec Ideal S1024 .f32) :
    val_main_v4 (F := Ideal) x s = Cert.ColumnScale.scaled x s := by
  funext i
  obtain ⟨r, c, rfl⟩ : ∃ (r : Fin 65536) (c : Fin 1024), i = ix2 r c := ⟨i 0, i 1, eq_ix2 i⟩
  rw [val_main_v4_apply, val_main_v3_apply, val_main_v2_apply, val_main_v1_apply, Cert.ColumnScale.scaled_apply]
  have e : idx_main_v2 (idx_main_v3 (ix2 r c)) = ix1 c := funext fun a => by match a with | ⟨0, _⟩ => rfl
  rw [e]
  rfl

/-- The sum stage at `r` is `d[r] + Σ_k s[k]`: the zero word the host's sum starts from adds nothing. -/
theorem total_eq (d : FVec Ideal S65536 .f32) (s : FVec Ideal S1024 .f32) :
    val_main_v6 (F := Ideal) d s = Cert.ColumnScale.shifted d s := by
  funext i
  obtain ⟨r, rfl⟩ : ∃ r : Fin 65536, i = ix1 r := ⟨i 0, eq_ix1 i⟩
  rw [val_main_v6_apply, val_main_v5_apply, val_main_v0_apply, val_main_cst_apply, Cert.ColumnScale.shifted_apply]
  show d (ix1 r) + (Ideal.ofBits .f32 0x00000000#32 + ∑ j : S1024.Idx, s j) = _
  rw [Ideal.ofBits_zero_f32, zero_add]
  exact congrArg (d (ix1 r) + ·) (Equiv.sum_comp (idxEquiv1 (n := 1024)).symm s).symm

end Cert.ReferenceIdeal.RefValue

end
-- ==== Proof.KernelValue.lean ====
/-
  What the idealized kernel's two results hold after the run, read off the frame run.

  The grid has 64 points; point t stages rows 1024·t … 1024·t + 1023 of x (all 1024 columns), the same rows of d seen
  as a one-column matrix, and at every point the whole of s seen as a one-row matrix. On that block the body writes
  the block of x times the exponential of the row repeated down the rows, and the column of d plus the row's lane sum
  repeated down the column. So what point t writes back to each result is block t of ONE function of the whole
  arrays: the first result's block is rows 1024·t … of x[r, c] · e^(s[c]), the second's is rows 1024·t … of the
  one-column matrix d[r] + Σ_k s[k]. The 64 row blocks tile both results, hence each result array ends holding that
  function everywhere. The line after the region reshapes the one-column matrix back to a vector.
-/
import proofs.«113367_j28329604284563_1_alg».proof.Proof.Gen.KernelIdeal.Frame
import proofs.«113367_j28329604284563_1_alg».proof.Proof.ColumnScale
import Idealize.ShloMosaic.Lib.Pipeline.Value
import Idealize.ShloMosaic.Lib.StableHlo.Run
import Idealize.ShloMosaic.Lib.Tactic

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.ColumnScale (scaled shifted)

variable (m : (ℓ : Loc nD τ sig) → Buf (Elt Ideal) ℓ) (ρ : Dev nD → PrngReg)

theorem hz : (![0, 0] : Fin 2 → Nat) = fun _ => 0 := funext fun a => by fin_cases a <;> rfl

/-! ## The body's two stored values at an index of the block -/

/-- The first store at `y`: the block of x there times `e` to the row's entry in `y`'s column. -/
theorem first_store_at (row : Vec Ideal S1x1024 .f32) (blk : Vec Ideal S1024x1024 .f32) (y : S1024x1024.Idx) (q : Fin 1024)
    (hq : (y 1).val = q.val) : k0_pay2 row blk y = blk y * Ideal.exp (row (ix2 (0 : Fin 1) q)) := by
  obtain ⟨p, q', rfl⟩ : ∃ (p q' : Fin 1024), y = ix2 p q' := ⟨y 0, y 1, eq_ix2 y⟩
  obtain rfl : q' = q := Fin.ext hq
  unfold k0_pay2 k0_pay1
  exact Cert.ColumnScale.block_times_exp_row row blk _ _ p q'

/-- The second store at `y`: the column of d there plus the row's total. -/
theorem second_store_at (row : Vec Ideal S1x1024 .f32) (col : Vec Ideal S1024x1 .f32) (y : S1024x1.Idx) :
    k0_pay3 row col y = col y + ∑ k : Fin 1024, row (ix2 (0 : Fin 1) k) := by
  obtain ⟨p, u, rfl⟩ : ∃ (p : Fin 1024) (u : Fin 1), y = ix2 p u := ⟨y 0, y 1, eq_ix2 y⟩
  unfold k0_pay3 k0_pay1
  exact Cert.ColumnScale.column_plus_row_total row col _ _ _ _ _ _ _ p u

/-! ## The two arrays the lines before the region write -/

/-- The one-row matrix the region stages is s reshaped. -/
theorem row_array (c : Dev nD) :
    (V m c main_v0 : S1x1024.Idx → EReal) = shapeCast S1x1024 (m ((c : Thread nD τ).loc main_arg2)) Facts₀.shapeCasts_S1024_S1x1024 := by
  show StableHlo.after hostOps0 (fun b => m (c, b)) (Proc.devRef .tc main_v0) = _
  after_results
  rfl

/-- The one-column matrix the region stages is d reshaped. -/
theorem column_array (c : Dev nD) :
    (V m c main_v1 : S65536x1.Idx → EReal) = shapeCast S65536x1 (m ((c : Thread nD τ).loc main_arg1)) Facts₀.shapeCasts_S65536_S65536x1 := by
  show StableHlo.after hostOps0 (fun b => m (c, b)) (Proc.devRef .tc main_v1) = _
  after_results
  rfl

/-- The one-row matrix at column `q` is `s[q]`. -/
theorem row_array_at (c : Dev nD) (y : S1x1024.Idx) (q : Fin 1024) (hq : (y 1).val = q.val) :
    (V m c main_v0 : S1x1024.Idx → EReal) y = m ((c : Thread nD τ).loc main_arg2) (ix1 q) := by
  obtain ⟨u, q', rfl⟩ : ∃ (u : Fin 1) (q' : Fin 1024), y = ix2 u q' := ⟨y 0, y 1, eq_ix2 y⟩
  obtain rfl : q' = q := Fin.ext hq
  rw [row_array]
  exact shapeCast_a_1a_apply _ _ u q'

/-- The one-column matrix at row `r` is `d[r]`. -/
theorem column_array_at (c : Dev nD) (i : S65536x1.Idx) (r : Fin 65536) (hr : (i 0).val = r.val) :
    (V m c main_v1 : S65536x1.Idx → EReal) i = m ((c : Thread nD τ).loc main_arg1) (ix1 r) := by
  obtain ⟨r', u, rfl⟩ : ∃ (r' : Fin 65536) (u : Fin 1), i = ix2 r' u := ⟨i 0, i 1, eq_ix2 i⟩
  obtain rfl : r' = r := Fin.ext hr
  rw [column_array]
  exact Cert.ColumnScale.shapeCast_a_a1_apply _ _ r' u

/-! ## Where each window's block sits -/

/-- The printed index maps over the 64 points: the row windows are at block row `t`, block column 0; the window of s
    is at block (0, 0) throughout. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The staged row of s at column `q`, at any point, is `s[q]`. -/
theorem staged_row_at (c : Dev nD) (t : Fin cfg0.N) (q : Fin 1024) :
    (iblk m c 1 t : Vec Ideal S1x1024 .f32) (ix2 (0 : Fin 1) q) = m ((c : Thread nD τ).loc main_arg2) (ix1 q) := by
  obtain ⟨-, -, e10, e11, -⟩ := block_indices t
  show V m c main_v0 (((cfg0.win 1).blk t).view.emb (ix2 (0 : Fin 1) q)) = _
  refine row_array_at m c _ q ?_
  show win0_1.index t (1 : Fin 2) * 1024 + 1 * q.val = q.val
  omega

/-! ## What a point writes back -/

/-- The second result as the region leaves it: the one-column matrix `d[r] + Σ_k s[k]`. -/
def shiftedColumn (d : FVec Ideal S65536 .f32) (s : FVec Ideal S1024 .f32) : FVec Ideal S65536x1 .f32 :=
  fun i => shifted d s (ix1 (n := 65536) ⟨(i 0).val, (i 0).isLt⟩)

theorem shiftedColumn_at (d : FVec Ideal S65536 .f32) (s : FVec Ideal S1024 .f32) (i : S65536x1.Idx) (r : Fin 65536)
    (hr : (i 0).val = r.val) : shiftedColumn d s i = d (ix1 r) + ∑ k : Fin 1024, s (ix1 k) := by
  unfold shiftedColumn
  rw [show (⟨(i 0).val, (i 0).isLt⟩ : Fin 65536) = r from Fin.ext hr]
  rfl

theorem scaled_at (x : FVec Ideal S65536x1024 .f32) (s : FVec Ideal S1024 .f32) (i : S65536x1024.Idx) (q : Fin 1024)
    (hq : (i 1).val = q.val) : scaled x s i = x i * Ideal.exp (s (ix1 q)) := by
  unfold Cert.ColumnScale.scaled
  rw [show (⟨(i 1).val, (i 1).isLt⟩ : Fin 1024) = q from Fin.ext hq]

/-- Point `t` writes back to the first result block `t` of `x[r, c] · e^(s[c])`: the block of x it staged is x read
    through the result's own rectangle, and the staged row is s. -/
theorem first_flushed (c : Dev nD) (t : Fin cfg0.N) :
    (dats m 0 c).flushed 3 t = ((cfg0.win 3).blk t).view.read (Elt Ideal)
      (scaled (m ((c : Thread nD τ).loc main_arg0)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1x1024) hz, View.ld_unit_zero (S := S1024x1024) hz]
  obtain ⟨e00, e01, -, -, -, -, e30, e31, -, -⟩ := block_indices t
  funext j
  have hj0 : (j 0).val < 1024 := (j 0).isLt
  have hj1 : (j 1).val < 1024 := (j 1).isLt
  show k0_pay2 (iblk m c 1 t) (iblk m c 0 t) j
    = scaled (m ((c : Thread nD τ).loc main_arg0)) (m ((c : Thread nD τ).loc main_arg2)) (((cfg0.win 3).blk t).view.emb j)
  refine (first_store_at (iblk m c 1 t) (iblk m c 0 t) j ⟨(j 1).val, hj1⟩ rfl).trans ?_
  refine Eq.trans ?_ (scaled_at _ _ (((cfg0.win 3).blk t).view.emb j) ⟨(j 1).val, hj1⟩ ?_).symm
  · rw [staged_row_at m c t ⟨(j 1).val, hj1⟩]
    refine congrArg (· * Ideal.exp (m ((c : Thread nD τ).loc main_arg2) (ix1 ⟨(j 1).val, hj1⟩))) ?_
    show V m c main_arg0 (((cfg0.win 0).blk t).view.emb j) = m ((c : Thread nD τ).loc main_arg0) (((cfg0.win 3).blk t).view.emb j)
    rw [V_main_arg0]
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * (j 1).val = win0_3.index t (1 : Fin 2) * 1024 + 1 * (j 1).val; omega
  · show win0_3.index t (1 : Fin 2) * 1024 + 1 * (j 1).val = (j 1).val
    omega

/-- Point `t` writes back to the second result block `t` of the one-column matrix `d[r] + Σ_k s[k]`. -/
theorem second_flushed (c : Dev nD) (t : Fin cfg0.N) :
    (dats m 0 c).flushed 4 t = ((cfg0.win 4).blk t).view.read (Elt Ideal)
      (shiftedColumn (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S1x1024) hz, View.ld_unit_zero (S := S1024x1) hz]
  obtain ⟨-, -, -, -, e20, e21, -, -, e40, e41⟩ := block_indices t
  have htN : t.val < 64 := lt_of_lt_of_eq t.isLt N_0
  funext j
  have hj0 : (j 0).val < 1024 := (j 0).isLt
  have hj1 : (j 1).val < 1 := (j 1).isLt
  show k0_pay3 (iblk m c 1 t) (iblk m c 2 t) j
    = shiftedColumn (m ((c : Thread nD τ).loc main_arg1)) (m ((c : Thread nD τ).loc main_arg2)) (((cfg0.win 4).blk t).view.emb j)
  refine (second_store_at (iblk m c 1 t) (iblk m c 2 t) j).trans ?_
  refine Eq.trans ?_ (shiftedColumn_at _ _ (((cfg0.win 4).blk t).view.emb j) ⟨t.val * 1024 + (j 0).val, by omega⟩ ?_).symm
  · refine congrArg₂ (· + ·) ?_ (Finset.sum_congr rfl fun k _ => staged_row_at m c t k)
    show V m c main_v1 (((cfg0.win 2).blk t).view.emb j) = _
    refine column_array_at m c _ _ ?_
    show win0_2.index t (0 : Fin 2) * 1024 + 1 * (j 0).val = t.val * 1024 + (j 0).val
    omega
  · show win0_4.index t (0 : Fin 2) * 1024 + 1 * (j 0).val = t.val * 1024 + (j 0).val
    omega

/-! ## The row blocks tile both results -/

theorem first_mem_block (t : Fin cfg0.N) (i : S65536x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2_0).slice (win0_3.rect t)).set ↔ _
  rw [View.set_slice_whole, Rect.mem_set_unit]
  exact Iff.rfl

theorem second_mem_block (t : Fin cfg0.N) (i : S65536x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2_1).slice (win0_4.rect t)).set ↔ _
  rw [View.set_slice_whole, Rect.mem_set_unit]
  exact Iff.rfl

/-- Row `r` of the first result is in the block of point `r / 1024`. -/
theorem first_cover (i : S65536x1024.Idx) : ∃ t : Fin cfg0.N, (cfg0.win 3).flush t = true ∧ i ∈ ((cfg0.win 3).blk t).view.set := by
  have h0 : (i 0).val < 65536 := (i 0).isLt
  have h1 : (i 1).val < 1024 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, -, e30, e31, -, -⟩ := block_indices t
  refine ⟨t, flush0_3 t, ?_⟩
  rw [first_mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Row `r` of the second result likewise. -/
theorem second_cover (i : S65536x1.Idx) : ∃ t : Fin cfg0.N, (cfg0.win 4).flush t = true ∧ i ∈ ((cfg0.win 4).blk t).view.set := by
  have h0 : (i 0).val < 65536 := (i 0).isLt
  have h1 : (i 1).val < 1 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, -, -, -, e40, e41⟩ := block_indices t
  refine ⟨t, flush0_4 t, ?_⟩
  rw [second_mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-! ## The arrays after the run -/

theorem first_final (c : Dev nD) : (dats m 0 c).arrAt 3 cfg0.N
    = scaled (m ((c : Thread nD τ).loc main_arg0)) (m ((c : Thread nD τ).loc main_arg2)) :=
  (dats m 0 c).arrAt_eq_of_cover 3 _ (fun t _ => first_flushed m c t) first_cover

theorem second_final (c : Dev nD) : (dats m 0 c).arrAt 4 cfg0.N
    = shiftedColumn (m ((c : Thread nD τ).loc main_arg1)) (m ((c : Thread nD τ).loc main_arg2)) :=
  (dats m 0 c).arrAt_eq_of_cover 4 _ (fun t _ => second_flushed m c t) second_cover

/-- The line after the region reshapes the one-column matrix to the vector `d[r] + Σ_k s[k]`. -/
theorem tail_result (c : Dev nD) :
    Pipeline.afterTail₀ cfgs (dats m) 0 (V0 m) [hostOps1] c main_v3
      = shifted (m ((c : Thread nD τ).loc main_arg1)) (m ((c : Thread nD τ).loc main_arg2)) := by
  unfold Pipeline.afterTail₀
  show StableHlo.after hostOps1 _ (Proc.devRef .tc main_v3) = _
  after_results
  funext i
  obtain ⟨r, rfl⟩ : ∃ r : Fin 65536, i = ix1 r := ⟨i 0, eq_ix1 i⟩
  show shapeCast S65536 (Pipeline.withArrays spec0 c (V0 m c) (fun w => (dats m 0 c).arrAt w cfg0.N) (Proc.devRef .tc main_v2_1))
    Facts₀.shapeCasts_S65536x1_S65536 (ix1 r) = _
  refine (Cert.ColumnScale.shapeCast_a1_a_apply _ _ r).trans ?_
  have e := (Pipeline.withArrays_arr spec0 launch0.win.arr_inj c (V0 m c) (fun w => (dats m 0 c).arrAt w cfg0.N) 4).trans (second_final m c)
  exact (congrFun e (ix2 r (0 : Fin 1))).trans (shiftedColumn_at _ _ _ r rfl)

/-! ## The run, read -/

/-- Every weakly fair execution of the idealized kernel ends with the first result at `x[r, c] · e^(s[c])`, the second
    at `d[r] + Σ_k s[k]`, and the three arguments as launched. -/
theorem run : θ_run defs (onTc (τ := τ) (main (F := Ideal))) ⟨m, fun _ => 0, ρ⟩ fun r => ∀ c : Dev nD,
      r.2.mem ((c : Thread nD τ).loc main_v2_0) = scaled (m ((c : Thread nD τ).loc main_arg0)) (m ((c : Thread nD τ).loc main_arg2))
      ∧ r.2.mem ((c : Thread nD τ).loc main_v3) = shifted (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (first_final m c),
      ((h c).2 main_v3 (Pipeline.mem_restRefs_of main_v3 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  The certificate of the column-scaling kernel against its reference.

  Both programs compute, over the extended reals,
      y[r, c] = x[r, c] · e^(s[c])      and      d'[r] = d[r] + Σ_k s[k].
  The kernel does it a block of 1024 rows at a time: it multiplies the block of x by the exponential of s, held as a
  one-row matrix and repeated down the rows, and adds to the block of d, held as a one-column matrix, the lane sum of
  that row; after the region the column is reshaped back to a vector. The reference exponentiates s, repeats it down
  every row and multiplies, and adds to d the host's sum of s started from the zero word. The exponential is one function
  of an extended real on both sides; the lane sum from its neutral accumulator and the host's sum from the zero word
  are the same finite sum, because adding the zero word's value changes nothing and a finite sum does not depend on how
  its terms are labelled. No law used moves a factor across a sum, so the finiteness of the inputs is never opened.

  The three programs run: the kernel and its idealization by their generated frames, the reference by its generated
  run. The idealization rewrote no operation, so there is nothing for it to preserve.
-/
import proofs.«113367_j28329604284563_1_alg».proof.Defs
import proofs.«113367_j28329604284563_1_alg».proof.Proof.Gen.Kernel
import proofs.«113367_j28329604284563_1_alg».proof.Proof.Gen.Kernel.Skeleton
import proofs.«113367_j28329604284563_1_alg».proof.Proof.Gen.Kernel.Launch
import proofs.«113367_j28329604284563_1_alg».proof.Proof.Gen.Kernel.Points
import proofs.«113367_j28329604284563_1_alg».proof.Proof.Gen.Kernel.Frame
import proofs.«113367_j28329604284563_1_alg».proof.Proof.Gen.KernelIdeal
import proofs.«113367_j28329604284563_1_alg».proof.Proof.Gen.KernelIdeal.Skeleton
import proofs.«113367_j28329604284563_1_alg».proof.Proof.Gen.KernelIdeal.Launch
import proofs.«113367_j28329604284563_1_alg».proof.Proof.Gen.KernelIdeal.Points
import proofs.«113367_j28329604284563_1_alg».proof.Proof.Gen.KernelIdeal.Frame
import proofs.«113367_j28329604284563_1_alg».proof.Proof.Gen.ReferenceIdeal
import proofs.«113367_j28329604284563_1_alg».proof.Proof.Gen.ReferenceIdeal.Run
import proofs.«113367_j28329604284563_1_alg».proof.Proof.Gen.ReferenceIdeal.Read
import proofs.«113367_j28329604284563_1_alg».proof.Proof.Gen.Pre_finite_inputs
import proofs.«113367_j28329604284563_1_alg».proof.Proof.ColumnScale
import proofs.«113367_j28329604284563_1_alg».proof.Proof.RefValue
import proofs.«113367_j28329604284563_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on x, d and s, both programs end with the first result at `x[r, c] · e^(s[c])` and the
    second at `d[r] + Σ_k s[k]`. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.ReferenceIdeal.RefValue.product_eq, (hagree c).1, (hagree c).2.2]
  · rw [Cert.ReferenceIdeal.Read.val_main_v6_eq, Cert.ReferenceIdeal.RefValue.total_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
